-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x224x224 : Shape := ⟨4, ![64, 3, 224, 224]⟩
abbrev S768x768 : Shape := ⟨2, ![768, 768]⟩
abbrev S768 : Shape := ⟨1, ![768]⟩
abbrev S197x768 : Shape := ⟨2, ![197, 768]⟩
abbrev S1x1x768 : Shape := ⟨3, ![1, 1, 768]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S197x768 : S_.BroadcastsInDim S197x768 (![] : Fin 0 → Fin S197x768.rank)
  reducesTo_S197x768_S_d0_1 : S197x768.ReducesTo [0, 1] S_
  bcast_S_S1x1x768 : S_.BroadcastsInDim S1x1x768 (![] : Fin 0 → Fin S1x1x768.rank)
  reducesTo_S1x1x768_S_d0_1_2 : S1x1x768.ReducesTo [0, 1, 2] S_

variable [Facts]

def fn_part1 {F : FTy → Type} [FloatOps F] (main_arg4 : FVec F S1x1x768 .f32) (main_v13 : IVec S_ 1) (main_v16 : IVec S197x768 1) : IVec S_ 1 :=
  let main_c_5 : IVec S_ 1 := constantI S_ 1 1#1
  let main_v17 : IVec S_ 1 := (fun x v => Host.reduce IntOp.andi x v reducesTo_S197x768_S_d0_1 h_S_) main_v16 main_c_5
  let main_v18 : IVec S_ 1 := andi main_v13 main_v17
  let main_v19 : FVec F S1x1x768 .f32 := Host.absf main_arg4
  let main_cst_6 : FVec F S_ .f32 := constant S_ .f32 0x7F800000#32
  let main_v20 : FVec F S1x1x768 .f32 := broadcastInDim S1x1x768 ![] bcast_S_S1x1x768 main_cst_6
  let main_v21 : IVec S1x1x768 1 := cmpf .olt main_v19 main_v20
  let main_c_7 : IVec S_ 1 := constantI S_ 1 1#1
  let main_v22 : IVec S_ 1 := (fun x v => Host.reduce IntOp.andi x v reducesTo_S1x1x768_S_d0_1_2 h_S_) main_v21 main_c_7
  let main_v23 : IVec S_ 1 := andi main_v18 main_v22
  main_v23

def fn {F : FTy → Type} [FloatOps F] (main_arg0 : FVec F S64x3x224x224 .f32) (main_arg1 : FVec F S768x768 .f32) (main_arg2 : FVec F S768 .f32) (main_arg3 : FVec F S197x768 .f32) (main_arg4 : FVec F S1x1x768 .f32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S197x768 .f32 := Host.absf main_arg3
  let main_cst_4 : FVec F S_ .f32 := constant S_ .f32 0x7F800000#32
  let main_v15 : FVec F S197x768 .f32 := broadcastInDim S197x768 ![] bcast_S_S197x768 main_cst_4
  let main_v16 : IVec S197x768 1 := cmpf .olt main_v14 main_v15
  fn_part1 (F := F) main_arg4 main_v13 main_v16
-- ==== Kernel.lean ====
abbrev S64x3x224x224 : Shape := ⟨4, ![64, 3, 224, 224]⟩
abbrev S768x768 : Shape := ⟨2, ![768, 768]⟩
abbrev S768 : Shape := ⟨1, ![768]⟩
abbrev S197x768 : Shape := ⟨2, ![197, 768]⟩
abbrev S1x1x768 : Shape := ⟨3, ![1, 1, 768]⟩
abbrev S64x3x14x16x14x16 : Shape := ⟨6, ![64, 3, 14, 16, 14, 16]⟩
abbrev S64x14x14x3x16x16 : Shape := ⟨6, ![64, 14, 14, 3, 16, 16]⟩
abbrev S64x196x768 : Shape := ⟨3, ![64, 196, 768]⟩
abbrev S12544x768 : Shape := ⟨2, ![12544, 768]⟩
abbrev S896x768 : Shape := ⟨2, ![896, 768]⟩
abbrev S1x768 : Shape := ⟨2, ![1, 768]⟩
abbrev S64x1x768 : Shape := ⟨3, ![64, 1, 768]⟩
abbrev S64x197x768 : Shape := ⟨3, ![64, 197, 768]⟩
abbrev S1x197x768 : Shape := ⟨3, ![1, 197, 768]⟩

abbrev nBuf : Space → Nat
  | .hbm => 16
  | .vmem => 6
  | .smem => 0
  | _ => 0

abbrev bufTy : (tb : Table) → Fin (tcTables nBuf tb) → BufTy
  | .hbm, ⟨0, _⟩ => ⟨S64x3x224x224, .f32⟩
  | .hbm, ⟨1, _⟩ => ⟨S768x768, .f32⟩
  | .hbm, ⟨2, _⟩ => ⟨S768, .f32⟩
  | .hbm, ⟨3, _⟩ => ⟨S197x768, .f32⟩
  | .hbm, ⟨4, _⟩ => ⟨S1x1x768, .f32⟩
  | .hbm, ⟨5, _⟩ => ⟨S64x3x14x16x14x16, .f32⟩
  | .hbm, ⟨6, _⟩ => ⟨S64x14x14x3x16x16, .f32⟩
  | .hbm, ⟨7, _⟩ => ⟨S64x196x768, .f32⟩
  | .hbm, ⟨8, _⟩ => ⟨S12544x768, .f32⟩
  | .hbm, ⟨9, _⟩ => ⟨S12544x768, .f32⟩
  | .hbm, ⟨10, _⟩ => ⟨S64x196x768, .f32⟩
  | .hbm, ⟨11, _⟩ => ⟨S64x1x768, .f32⟩
  | .hbm, ⟨12, _⟩ => ⟨S64x197x768, .f32⟩
  | .hbm, ⟨13, _⟩ => ⟨S1x197x768, .f32⟩
  | .hbm, ⟨14, _⟩ => ⟨S64x197x768, .f32⟩
  | .hbm, ⟨15, _⟩ => ⟨S64x197x768, .f32⟩
  | .local _ .vmem, ⟨0, _⟩ => ⟨S896x768, .f32⟩
  | .local _ .vmem, ⟨1, _⟩ => ⟨S896x768, .f32⟩
  | .local _ .vmem, ⟨2, _⟩ => ⟨S768x768, .f32⟩
  | .local _ .vmem, ⟨3, _⟩ => ⟨S768, .f32⟩
  | .local _ .vmem, ⟨4, _⟩ => ⟨S896x768, .f32⟩
  | .local _ .vmem, ⟨5, _⟩ => ⟨S896x768, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S896x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S896x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x3x224x224_S64x3x14x16x14x16 : S64x3x224x224.ShapeCasts S64x3x14x16x14x16
  transposes_S64x3x14x16x14x16_S64x14x14x3x16x16_0_2_4_1_3_5 : S64x3x14x16x14x16.Transposes [0, 2, 4, 1, 3, 5] S64x14x14x3x16x16
  shapeCasts_S64x14x14x3x16x16_S64x196x768 : S64x14x14x3x16x16.ShapeCasts S64x196x768
  shapeCasts_S64x196x768_S12544x768 : S64x196x768.ShapeCasts S12544x768
  inb_S896x768_S896x768_0_0 : ∀ a, (![0, 0] : Fin 2 → Nat) a + S896x768.size a ≤ S896x768.size a
  h_S896x768 : 0 < S896x768.numel
  shapeCasts_S896x768_S896x768 : S896x768.ShapeCasts S896x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S896x768 : S1x768.Broadcasts S896x768
  shapeCasts_S12544x768_S64x196x768 : S12544x768.ShapeCasts S64x196x768
  bcast_S1x1x768_S64x1x768_0_1_2 : S1x1x768.BroadcastsInDim S64x1x768 (![0, 1, 2] : Fin 3 → Fin S64x1x768.rank)
  concatenates_S64x1x768_S64x196x768_S64x197x768_d1 : Shape.Concatenates [S64x1x768, S64x196x768] S64x197x768 1
  bcast_S197x768_S1x197x768_1_2 : S197x768.BroadcastsInDim S1x197x768 (![1, 2] : Fin 2 → Fin S1x197x768.rank)
  bcast_S1x197x768_S64x197x768_0_1_2 : S1x197x768.BroadcastsInDim S64x197x768 (![0, 1, 2] : Fin 3 → Fin S64x197x768.rank)
  dot_S896x768_S768x768_S896x768_1_0_0_1_n_n_wf : DotDims.WF S896x768 S768x768 S896x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S896x768.size a ≤ S12544x768.size a
  hwx0_0 : ∀ i : grid0.Coords, EltTy.bits .f32 = 32 ∨ (Rect.block (s := S12544x768) S896x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S896x768.size a ≤ S12544x768.size a
  hwx0_3 : ∀ i : grid0.Coords, EltTy.bits .f32 = 32 ∨ (Rect.block (s := S12544x768) S896x768.size (cc0_transform_3 i) (hinb0_3 i)).WholeWords (EltTy.packing .f32)

variable [Facts₀]

def dot_S896x768_S768x768_S896x768_1_0_0_1_n_n : DotDims S896x768 S768x768 S896x768 where
  lhsContracting := [1]
  rhsContracting := [0]
  lhsNonContracting := [0]
  rhsNonContracting := [1]
  lhsBatch := []
  rhsBatch := []
  wf := dot_S896x768_S768x768_S896x768_1_0_0_1_n_n_wf

abbrev win0_0 : Pipeline.Window sig grid0 :=
  Pipeline.Window.ofSpec (Memref.whole main_v3) S896x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S896x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x224x224 : Shape := ⟨4, ![64, 3, 224, 224]⟩
abbrev S768x768 : Shape := ⟨2, ![768, 768]⟩
abbrev S768 : Shape := ⟨1, ![768]⟩
abbrev S197x768 : Shape := ⟨2, ![197, 768]⟩
abbrev S1x1x768 : Shape := ⟨3, ![1, 1, 768]⟩
abbrev S64x3x14x16x14x16 : Shape := ⟨6, ![64, 3, 14, 16, 14, 16]⟩
abbrev S64x14x14x3x16x16 : Shape := ⟨6, ![64, 14, 14, 3, 16, 16]⟩
abbrev S64x196x768 : Shape := ⟨3, ![64, 196, 768]⟩
abbrev S64x1x768 : Shape := ⟨3, ![64, 1, 768]⟩
abbrev S64x197x768 : Shape := ⟨3, ![64, 197, 768]⟩
abbrev S1x197x768 : Shape := ⟨3, ![1, 197, 768]⟩

abbrev nBuf : Space → Nat
  | .hbm => 17
  | .vmem => 0
  | .smem => 0
  | _ => 0

abbrev bufTy : (tb : Table) → Fin (tcTables nBuf tb) → BufTy
  | .hbm, ⟨0, _⟩ => ⟨S64x3x224x224, .f32⟩
  | .hbm, ⟨1, _⟩ => ⟨S768x768, .f32⟩
  | .hbm, ⟨2, _⟩ => ⟨S768, .f32⟩
  | .hbm, ⟨3, _⟩ => ⟨S197x768, .f32⟩
  | .hbm, ⟨4, _⟩ => ⟨S1x1x768, .f32⟩
  | .hbm, ⟨5, _⟩ => ⟨S64x3x14x16x14x16, .f32⟩
  | .hbm, ⟨6, _⟩ => ⟨S64x14x14x3x16x16, .f32⟩
  | .hbm, ⟨7, _⟩ => ⟨S64x196x768, .f32⟩
  | .hbm, ⟨8, _⟩ => ⟨S64x196x768, .f32⟩
  | .hbm, ⟨9, _⟩ => ⟨S1x1x768, .f32⟩
  | .hbm, ⟨10, _⟩ => ⟨S64x196x768, .f32⟩
  | .hbm, ⟨11, _⟩ => ⟨S64x196x768, .f32⟩
  | .hbm, ⟨12, _⟩ => ⟨S64x1x768, .f32⟩
  | .hbm, ⟨13, _⟩ => ⟨S64x197x768, .f32⟩
  | .hbm, ⟨14, _⟩ => ⟨S1x197x768, .f32⟩
  | .hbm, ⟨15, _⟩ => ⟨S64x197x768, .f32⟩
  | .hbm, ⟨16, _⟩ => ⟨S64x197x768, .f32⟩
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S64x3x224x224_S64x3x14x16x14x16 : S64x3x224x224.ShapeCasts S64x3x14x16x14x16
  transposes_S64x3x14x16x14x16_S64x14x14x3x16x16_0_2_4_1_3_5 : S64x3x14x16x14x16.Transposes [0, 2, 4, 1, 3, 5] S64x14x14x3x16x16
  shapeCasts_S64x14x14x3x16x16_S64x196x768 : S64x14x14x3x16x16.ShapeCasts S64x196x768
  bcast_S768_S1x1x768_2 : S768.BroadcastsInDim S1x1x768 (![2] : Fin 1 → Fin S1x1x768.rank)
  bcast_S1x1x768_S64x196x768_0_1_2 : S1x1x768.BroadcastsInDim S64x196x768 (![0, 1, 2] : Fin 3 → Fin S64x196x768.rank)
  bcast_S1x1x768_S64x1x768_0_1_2 : S1x1x768.BroadcastsInDim S64x1x768 (![0, 1, 2] : Fin 3 → Fin S64x1x768.rank)
  concatenates_S64x1x768_S64x196x768_S64x197x768_d1 : Shape.Concatenates [S64x1x768, S64x196x768] S64x197x768 1
  bcast_S197x768_S1x197x768_1_2 : S197x768.BroadcastsInDim S1x197x768 (![1, 2] : Fin 2 → Fin S1x197x768.rank)
  bcast_S1x197x768_S64x197x768_0_1_2 : S1x197x768.BroadcastsInDim S64x197x768 (![0, 1, 2] : Fin 3 → Fin S64x197x768.rank)
  dot_S64x196x768_S768x768_S64x196x768_2_0_01_1_n_n_wf : DotDims.WF S64x196x768 S768x768 S64x196x768 [2] [0] [0, 1] [1] [] []

variable [Facts₀]

def dot_S64x196x768_S768x768_S64x196x768_2_0_01_1_n_n : DotDims S64x196x768 S768x768 S64x196x768 where
  lhsContracting := [2]
  rhsContracting := [0]
  lhsNonContracting := [0, 1]
  rhsNonContracting := [1]
  lhsBatch := []
  rhsBatch := []
  wf := dot_S64x196x768_S768x768_S64x196x768_2_0_01_1_n_n_wf

class Facts : Prop extends Facts₀ where

variable [Facts]
-- ==== Proof.TokenPayload.lean ====
/-
  One row block of the projection, entry by entry.

  The kernel body loads a block of 896 flattened patches (each a row of 768 features), the whole 768 x 768 weight
  matrix and the bias vector, and stores  block · W + bias.  Over the extended reals a change of float format is the
  identity and the product into a zero accumulator is the plain sum, so entry (p, q) of what the body stores is
      ∑ₖ block[p, k] · W[k, q]  +  bias[q].
-/
import proofs.«166114_j30305289240876_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Tokens

open Cert.KernelIdeal Cert.KernelIdeal.Gen

/-! ## The product's operand indices: rows of the left operand, columns of the right, one contracted axis -/

theorem lhs_row (i : S896x768.Idx) (q : dot_S896x768_S768x768_S896x768_1_0_0_1_n_n.contr.Idx) :
    (dot_S896x768_S768x768_S896x768_1_0_0_1_n_n.lhsIdx i q 0).val = (i 0).val := by
  unfold DotDims.lhsIdx
  rw [dif_neg (show ¬(0 : Fin S896x768.rank) ∈ dot_S896x768_S768x768_S896x768_1_0_0_1_n_n.lhsBatch by decide), dif_pos (show (0 : Fin S896x768.rank) ∈ dot_S896x768_S768x768_S896x768_1_0_0_1_n_n.lhsNonContracting by decide)]
  rfl
theorem lhs_contr (i : S896x768.Idx) (q : dot_S896x768_S768x768_S896x768_1_0_0_1_n_n.contr.Idx) :
    (dot_S896x768_S768x768_S896x768_1_0_0_1_n_n.lhsIdx i q 1).val = (q ⟨0, by decide⟩).val :=
  dot_S896x768_S768x768_S896x768_1_0_0_1_n_n.lhsIdx_val_of_single rfl i q
theorem rhs_contr (i : S896x768.Idx) (q : dot_S896x768_S768x768_S896x768_1_0_0_1_n_n.contr.Idx) :
    (dot_S896x768_S768x768_S896x768_1_0_0_1_n_n.rhsIdx i q 0).val = (q ⟨0, by decide⟩).val :=
  dot_S896x768_S768x768_S896x768_1_0_0_1_n_n.rhsIdx_val_of_single rfl i q
theorem rhs_col (i : S896x768.Idx) (q : dot_S896x768_S768x768_S896x768_1_0_0_1_n_n.contr.Idx) :
    (dot_S896x768_S768x768_S896x768_1_0_0_1_n_n.rhsIdx i q 1).val = (i 1).val := by
  unfold DotDims.rhsIdx
  rw [dif_neg (show ¬(1 : Fin S768x768.rank) ∈ dot_S896x768_S768x768_S896x768_1_0_0_1_n_n.rhsBatch by decide), dif_pos (show (1 : Fin S768x768.rank) ∈ dot_S896x768_S768x768_S896x768_1_0_0_1_n_n.rhsNonContracting by decide)]
  rfl

/-- The block product into a zero accumulator, at entry (p, q): row p of the left operand against column q of the right. -/
theorem product_apply (A : FVec Ideal S896x768 .bf16) (B : FVec Ideal S768x768 .bf16) (p : Fin 896) (q : Fin 768) :
    matmul dot_S896x768_S768x768_S896x768_1_0_0_1_n_n none A B (constant S896x768 .f32 0x00000000#32) (ix2 p q)
      = ∑ k : Fin 768, A (ix2 p k) * B (ix2 k q) := by
  refine (Ideal.matmul_constant_zero_apply dot_S896x768_S768x768_S896x768_1_0_0_1_n_n none A B (ix2 p q)).trans ?_
  rw [← Equiv.sum_comp (contrEquiv1 dot_S896x768_S768x768_S896x768_1_0_0_1_n_n 768 rfl rfl).symm]
  refine Finset.sum_congr rfl fun k _ => ?_
  have hk := contrEquiv1_symm_val dot_S896x768_S768x768_S896x768_1_0_0_1_n_n 768 rfl rfl k
  have el : dot_S896x768_S768x768_S896x768_1_0_0_1_n_n.lhsIdx (ix2 p q) ((contrEquiv1 dot_S896x768_S768x768_S896x768_1_0_0_1_n_n 768 rfl rfl).symm k) = ix2 p k := funext fun a => Fin.ext (by
    match a with
    | ⟨0, _⟩ => exact lhs_row _ _
    | ⟨1, _⟩ => exact (lhs_contr _ _).trans hk)
  have er : dot_S896x768_S768x768_S896x768_1_0_0_1_n_n.rhsIdx (ix2 p q) ((contrEquiv1 dot_S896x768_S768x768_S896x768_1_0_0_1_n_n 768 rfl rfl).symm k) = ix2 k q := funext fun a => Fin.ext (by
    match a with
    | ⟨0, _⟩ => exact (rhs_contr _ _).trans hk
    | ⟨1, _⟩ => exact rhs_col _ _)
  rw [el, er]

/-- The bias vector, viewed as one row and repeated down the block, reads bias[q] at every entry of column q. -/
theorem bias_apply (b : Vec Ideal S768 .f32) (p : Fin 896) (q : Fin 768) :
    broadcastTo S896x768 (shapeCast S1x768 b shapeCasts_S768_S1x768) broadcasts_S1x768_S896x768 (ix2 p q) = b (ix1 q) := by
  refine (broadcastTo_apply _ broadcasts_S1x768_S896x768 (ix2 p q) (ix2 (0 : Fin 1) q) (fun a => ?_)).trans ?_
  · match a with
    | ⟨0, _⟩ => show 0 = if (1 : Nat) = 1 then 0 else _; rw [if_pos rfl]
    | ⟨1, _⟩ => show q.val = if (768 : Nat) = 1 then 0 else q.val; rw [if_neg (by decide)]
  · exact shapeCast_a_1a_apply b shapeCasts_S768_S1x768 0 q

/-- WHAT THE BODY STORES, at entry (p, q) of its block: the row of patches against the column of weights, plus the bias. -/
theorem payload_apply (x0 : Vec Ideal S896x768 .f32) (x1 : Vec Ideal S768x768 .f32) (x2 : Vec Ideal S768 .f32)
    (p : Fin 896) (q : Fin 768) :
    k0_pay1 (F := Ideal) x0 x1 x2 (ix2 p q) = (∑ k : Fin 768, x0 (ix2 p k) * x1 (ix2 k q)) + x2 (ix1 q) := by
  unfold k0_pay1
  show matmul (F := Ideal) dot_S896x768_S768x768_S896x768_1_0_0_1_n_n none (truncf (F := Ideal) .bf16 (shapeCast S896x768 x0 shapeCasts_S896x768_S896x768) bitsLt_bf16_f32)
        (truncf (F := Ideal) .bf16 x1 bitsLt_bf16_f32) (constant (F := Ideal) S896x768 .f32 0x00000000#32) (ix2 p q)
      + broadcastTo S896x768 (shapeCast S1x768 x2 shapeCasts_S768_S1x768) broadcasts_S1x768_S896x768 (ix2 p q) = _
  rw [product_apply, bias_apply, shapeCast_self]
  rfl

end Cert.KernelIdeal.Tokens

end
-- ==== Proof.TokenArray.lean ====
/-
  From row blocks to the whole array of projected patches.

  The grid has 14 points; point t handles rows 896·t … 896·t + 895 of the 12544 flattened patches, against the whole
  weight matrix and the whole bias at every point, and writes back rows 896·t … 896·t + 895 of the result.  The row
  blocks tile the result, so after the region the result array is, entry by entry,
      proj P W b (r, d) = ∑ₖ P[r, k] · W[k, d] + b[d],
  with P the flattened patches as the region finds them.
-/
import proofs.«166114_j30305289240876_1_alg».proof.Proof.Gen.KernelIdeal.Frame
import proofs.«166114_j30305289240876_1_alg».proof.Proof.TokenPayload

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Tokens

open Cert.KernelIdeal Cert.KernelIdeal.Gen

/-- The projection of every flattened patch: row r of P against column d of W, plus the bias of column d. -/
def proj (P : Vec Ideal S12544x768 .f32) (W : Vec Ideal S768x768 .f32) (b : Vec Ideal S768 .f32) : Vec Ideal S12544x768 .f32 :=
  fun j => (∑ k : Fin 768, P (ix2 (j 0) k) * W (ix2 k (j 1))) + b (ix1 (j 1))

variable (m : (ℓ : Loc nD τ sig) → Buf (Elt Ideal) ℓ) (ρ : Dev nD → PrngReg)

/-- The arrays as the region finds them, at their literal types: the flattened patches, the weights, the bias. -/
abbrev patchArr (c : Dev nD) : Vec Ideal S12544x768 .f32 := V m c main_v3
abbrev weightArr (c : Dev nD) : Vec Ideal S768x768 .f32 := V m c main_arg1
abbrev biasArr (c : Dev nD) : Vec Ideal S768 .f32 := V m c main_arg2

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the patch rows and the result rows move together, block t at point t;
    the weights and the bias stay at block 0. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (1 : Fin 2) = 0 :=
  (by decide +kernel : ∀ t : Fin grid0.N, _)

/-- Every one of the 14 row blocks is some point's. -/
theorem idx_onto : ∀ (q0 : Fin 14), ∃ t : Fin cfg0.N, win0_3.index t = ![q0.val, 0] :=
  (by decide +kernel : ∀ (q0 : Fin 14), ∃ t : Fin grid0.N, win0_3.index t = ![q0.val, 0])

/-- WHAT POINT t WRITES BACK is block t of the projection of the arrays as the region finds them. -/
theorem flushed_eq (c : Dev nD) (t : Fin cfg0.N) :
    (dats m 0 c).flushed 3 t
      = ((cfg0.win 3).blk t).view.read (Elt Ideal) (proj (patchArr m c) (weightArr m c) (biasArr m c)) := by
  show (cfg0.win 3).cut (grid0.coords t) ((dats m 0 c).after 3 t) = _
  rw [after0_3]
  unfold out0_3
  rw [View.canon_unit_zero zeros2]
  simp only [View.ld_unit_zero (S := S896x768) zeros2, View.ld_unit_zero (S := S768x768) zeros2, View.ld_unit_zero (S := S768) zeros1]
  obtain ⟨e0, e1, e2, e3, e4, e5⟩ := idx_facts t
  funext j
  obtain ⟨p, q, rfl⟩ : ∃ (p : Fin 896) (q : Fin 768), j = ix2 p q := ⟨j 0, j 1, eq_ix2 j⟩
  refine (payload_apply (iblk m c 0 t) (iblk m c 1 t) (iblk m c 2 t) p q).trans ?_
  show (∑ k : Fin 768, patchArr m c (((cfg0.win 0).blk t).view.emb (ix2 p k)) * weightArr m c (((cfg0.win 1).blk t).view.emb (ix2 k q)))
        + biasArr m c (((cfg0.win 2).blk t).view.emb (ix1 q))
      = (∑ k : Fin 768, patchArr m c (ix2 ((((cfg0.win 3).blk t).view.emb (ix2 p q)) 0) k) * weightArr m c (ix2 k ((((cfg0.win 3).blk t).view.emb (ix2 p q)) 1)))
        + biasArr m c (ix1 ((((cfg0.win 3).blk t).view.emb (ix2 p q)) 1))
  have h0 : ∀ k : Fin 768, ((cfg0.win 0).blk t).view.emb (ix2 p k) = ix2 ((((cfg0.win 3).blk t).view.emb (ix2 p q)) 0) k := by
    intro k; funext a; apply Fin.ext
    match a with
    | ⟨0, _⟩ => show win0_0.index t (0 : Fin 2) * 896 + 1 * p.val = win0_3.index t (0 : Fin 2) * 896 + 1 * p.val; omega
    | ⟨1, _⟩ => show win0_0.index t (1 : Fin 2) * 768 + 1 * k.val = k.val; omega
  have h1 : ∀ k : Fin 768, ((cfg0.win 1).blk t).view.emb (ix2 k q) = ix2 k ((((cfg0.win 3).blk t).view.emb (ix2 p q)) 1) := by
    intro k; funext a; apply Fin.ext
    match a with
    | ⟨0, _⟩ => show win0_1.index t (0 : Fin 2) * 768 + 1 * k.val = k.val; omega
    | ⟨1, _⟩ => show win0_1.index t (1 : Fin 2) * 768 + 1 * q.val = win0_3.index t (1 : Fin 2) * 768 + 1 * q.val; omega
  have h2 : ((cfg0.win 2).blk t).view.emb (ix1 q) = ix1 ((((cfg0.win 3).blk t).view.emb (ix2 p q)) 1) := by
    funext a; apply Fin.ext
    match a with
    | ⟨0, _⟩ => show win0_2.index t (0 : Fin 1) * 768 + 1 * q.val = win0_3.index t (1 : Fin 2) * 768 + 1 * q.val; omega
  rw [h2]
  exact congrArg (· + _) (Finset.sum_congr rfl fun k _ =>
    congrArg₂ (· * ·) (congrArg (patchArr m c) (h0 k)) (congrArg (weightArr m c) (h1 k)))

/-- An index of the result is in point t's block iff each coordinate is in the block's range on its axis. -/
theorem mem_blk (t : Fin cfg0.N) (i : S12544x768.Idx) :
    i ∈ ((cfg0.win 3).blk t).view.set ↔ ∀ a : Fin 2, win0_3.index t a * S896x768.size a ≤ (i a).val ∧ (i a).val < win0_3.index t a * S896x768.size a + S896x768.size a := by
  show i ∈ ((View.whole main_v4).slice (win0_3.rect t)).set ↔ _
  rw [View.set_slice_whole, Rect.mem_set_unit]
  exact Iff.rfl

/-- The row blocks tile the result: row r lies in block r / 896. -/
theorem cover (i : S12544x768.Idx) :
    ∃ t : Fin cfg0.N, (cfg0.win 3).flush t = true ∧ i ∈ ((cfg0.win 3).blk t).view.set := by
  have hi0 : (i 0).val < 12544 := (i 0).isLt
  have hi1 : (i 1).val < 768 := (i 1).isLt
  obtain ⟨t, ht⟩ := idx_onto ⟨(i 0).val / 896, by omega⟩
  have q0 : win0_3.index t (0 : Fin 2) = (i 0).val / 896 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 896 ≤ (i 0).val ∧ (i 0).val < win0_3.index t (0 : Fin 2) * 896 + 896; omega
  | ⟨1, _⟩ => show win0_3.index t (1 : Fin 2) * 768 ≤ (i 1).val ∧ (i 1).val < win0_3.index t (1 : Fin 2) * 768 + 768; omega

/-- THE RESULT ARRAY after the region: the projection of the arrays as the region finds them. -/
theorem final (c : Dev nD) :
    (dats m 0 c).arrAt 3 cfg0.N = proj (patchArr m c) (weightArr m c) (biasArr m c) :=
  (dats m 0 c).arrAt_eq_of_cover 3 _ (fun t _ => flushed_eq m c t) cover

end Cert.KernelIdeal.Tokens

end
-- ==== Proof.TokenRows.lean ====
/-
  Flattening (image, patch) into one row axis and back does not change what is summed.

  Row 196·i + n of the flattened patches is patch n of image i, and entry (i, n, d) of the un-flattened projection is
  entry (196·i + n, d) of the projection: both reshapes keep row-major positions.  So
      unflatten (proj (flatten P) W b) (i, n, d) = ∑ₖ P[i, n, k] · W[k, d] + b[d].
-/
import proofs.«166114_j30305289240876_1_alg».proof.Proof.TokenArray

noncomputable section

open scoped BigOperators
open Idealize.ShloMosaic Idealize.ShloMosaic.ValueIdx

namespace Cert.KernelIdeal.Tokens

open Cert.KernelIdeal Cert.KernelIdeal.Gen

/-- Patch n of image i is row 196·i + n. -/
theorem row_lt (i : Fin 64) (n : Fin 196) : i.val * 196 + n.val < 12544 := by
  have := i.isLt; have := n.isLt; omega

/-- The flattened patches at row 196·i + n are patch n of image i. -/
theorem flatten_apply (P : Vec Ideal S64x196x768 .f32) (i : Fin 64) (n : Fin 196) (k : Fin 768) :
    shapeCast S12544x768 P shapeCasts_S64x196x768_S12544x768 (ix2 (⟨i.val * 196 + n.val, row_lt i n⟩ : Fin 12544) k) = P (ix3 i n k) :=
  shapeCast_apply P shapeCasts_S64x196x768_S12544x768 _ _ (by
    rw [Shape.rowMajor_val_three, Shape.rowMajor_val_two]
    show (i.val * 196 + n.val) * 768 + k.val = (i.val * 196 + n.val) * 768 + k.val
    rfl)

/-- A 12544-row array un-flattened reads, at (i, n, d), its row 196·i + n. -/
theorem unflatten_apply (T : Vec Ideal S12544x768 .f32) (i : Fin 64) (n : Fin 196) (d : Fin 768) :
    shapeCast S64x196x768 T shapeCasts_S12544x768_S64x196x768 (ix3 i n d) = T (ix2 (⟨i.val * 196 + n.val, row_lt i n⟩ : Fin 12544) d) :=
  shapeCast_apply T shapeCasts_S12544x768_S64x196x768 _ _ (by
    rw [Shape.rowMajor_val_two, Shape.rowMajor_val_three]
    show (i.val * 196 + n.val) * 768 + d.val = (i.val * 196 + n.val) * 768 + d.val
    rfl)

/-- THE TOKENS, entry by entry: patch n of image i against column d of the weights, plus the bias of column d. -/
theorem tokens_apply (P : Vec Ideal S64x196x768 .f32) (W : Vec Ideal S768x768 .f32) (b : Vec Ideal S768 .f32)
    (i : Fin 64) (n : Fin 196) (d : Fin 768) :
    shapeCast S64x196x768 (proj (shapeCast S12544x768 P shapeCasts_S64x196x768_S12544x768) W b) shapeCasts_S12544x768_S64x196x768 (ix3 i n d)
      = (∑ k : Fin 768, P (ix3 i n k) * W (ix2 k d)) + b (ix1 d) := by
  rw [unflatten_apply]
  unfold proj
  show (∑ k : Fin 768, shapeCast S12544x768 P shapeCasts_S64x196x768_S12544x768 (ix2 (⟨i.val * 196 + n.val, row_lt i n⟩ : Fin 12544) k) * W (ix2 k d)) + b (ix1 d) = _
  exact congrArg (· + b (ix1 d)) (Finset.sum_congr rfl fun k _ => congrArg (· * W (ix2 k d)) (flatten_apply P i n k))

end Cert.KernelIdeal.Tokens

end
-- ==== Proof.TokenRun.lean ====
/-
  The kernel program's run, read back as one function of the argument arrays.

  Before the region the host lays the image out as patches (a reshape, a transpose of the six axes, a reshape) and
  flattens (image, patch) into one row axis; after it the host unflattens the result, puts the class token in front
  of each image's 196 tokens and adds the position table.  So the program ends with
      withClassAndPos (unflatten (proj (flatten (patchify x)) W b)) class_token pos_table .
-/
import proofs.«166114_j30305289240876_1_alg».proof.Proof.Gen.KernelIdeal.Frame
import proofs.«166114_j30305289240876_1_alg».proof.Proof.TokenArray
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.Tokens

open Cert.KernelIdeal Cert.KernelIdeal.Gen

/-- The image as patches: (image, patch, feature), the features of a patch ordered channel, row, column. -/
def patchify (x : Vec Ideal S64x3x224x224 .f32) : Vec Ideal S64x196x768 .f32 :=
  shapeCast S64x196x768
    (transpose S64x14x14x3x16x16 [0, 2, 4, 1, 3, 5] (shapeCast S64x3x14x16x14x16 x shapeCasts_S64x3x224x224_S64x3x14x16x14x16)
      transposes_S64x3x14x16x14x16_S64x14x14x3x16x16_0_2_4_1_3_5)
    shapeCasts_S64x14x14x3x16x16_S64x196x768

/-- What a token array ends as: the class token in front of each image's tokens, the position table added to every image. -/
def withClassAndPos (tok : Vec Ideal S64x196x768 .f32) (cls : Vec Ideal S1x1x768 .f32) (pos : Vec Ideal S197x768 .f32) :
    Vec Ideal S64x197x768 .f32 :=
  addf (F := Ideal) (φ := .f32)
    (concatenate S64x197x768 1
      [⟨S64x1x768, broadcastInDim S64x1x768 ![0, 1, 2] bcast_S1x1x768_S64x1x768_0_1_2 cls⟩, ⟨S64x196x768, tok⟩]
      concatenates_S64x1x768_S64x196x768_S64x197x768_d1)
    (broadcastInDim S64x197x768 ![0, 1, 2] bcast_S1x197x768_S64x197x768_0_1_2
      (broadcastInDim S1x197x768 ![1, 2] bcast_S197x768_S1x197x768_1_2 pos))

variable (m : (ℓ : Loc nD τ sig) → Buf (Elt Ideal) ℓ) (ρ : Dev nD → PrngReg)

/-- The region finds, as its array of patch rows, the patches of the image argument with (image, patch) flattened. -/
theorem patchArr_eq (c : Dev nD) :
    patchArr m c = shapeCast S12544x768 (patchify (m ((c : Thread nD τ).loc main_arg0))) shapeCasts_S64x196x768_S12544x768 := by
  show StableHlo.after hostOps0 (fun b => m (c, b)) (Proc.devRef .tc main_v3) = _
  after_results
  rfl

/-- The host lines after the region, applied to what the region leaves. -/
theorem tail_eq (c : Dev nD) :
    Pipeline.afterTail₀ cfgs (dats m) 0 (V0 m) [hostOps1] c main_v10
      = withClassAndPos (shapeCast S64x196x768 ((dats m 0 c).arrAt 3 cfg0.N) shapeCasts_S12544x768_S64x196x768)
          (m ((c : Thread nD τ).loc main_arg4)) (m ((c : Thread nD τ).loc main_arg3)) := by
  unfold Pipeline.afterTail₀
  show StableHlo.after hostOps1 _ (Proc.devRef .tc main_v10) = _
  after_results
  have hA : Pipeline.withArrays (cfgs 0).spec c (V0 m c) (fun w => (dats m 0 c).arrAt w (cfgs 0).N) (Proc.devRef .tc main_v4) = (dats m 0 c).arrAt 3 cfg0.N :=
    Pipeline.withArrays_arr spec0 launch0.win.arr_inj c _ _ 3
  have h4 : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  have h3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  rw [hA, h4, h3]
  rfl

/-- No host line before the region writes the weights or the bias: the region finds them as launched. -/
theorem weightArr_eq (c : Dev nD) : weightArr m c = m ((c : Thread nD τ).loc main_arg1) := V_main_arg1 m c
theorem biasArr_eq (c : Dev nD) : biasArr m c = m ((c : Thread nD τ).loc main_arg2) := V_main_arg2 m c

/-- The program's result as ONE function of the argument arrays as launched. -/
def result (x : Vec Ideal S64x3x224x224 .f32) (W : Vec Ideal S768x768 .f32) (b : Vec Ideal S768 .f32)
    (pos : Vec Ideal S197x768 .f32) (cls : Vec Ideal S1x1x768 .f32) : Vec Ideal S64x197x768 .f32 :=
  withClassAndPos
    (shapeCast S64x196x768 (proj (shapeCast S12544x768 (patchify x) shapeCasts_S64x196x768_S12544x768) W b) shapeCasts_S12544x768_S64x196x768)
    cls pos

/-- What the host lines after the region leave in the result buffer. -/
theorem result_eq (c : Dev nD) :
    Pipeline.afterTail₀ cfgs (dats m) 0 (V0 m) [hostOps1] c main_v10
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [tail_eq, final, patchArr_eq, weightArr_eq, biasArr_eq]
  rfl

/-- THE RUN: every weakly fair execution of the program terminates with the result buffer at `result` of the
    arguments as launched, and the arguments unchanged. -/
theorem run : θ_run defs (onTc (τ := τ) (main (F := Ideal))) ⟨m, fun _ => 0, ρ⟩ fun r => ∀ c : Dev nD,
      r.2.mem ((c.tc : Thread nD τ).loc main_v10)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Tokens

end
-- ==== Proof.RefTokens.lean ====
/-
  The reference's tokens, entry by entry.

  The reference contracts the feature axis of the patches against the rows of the weights, adds the bias broadcast over
  images and patches, and so holds at (i, n, d)
      ∑ₖ patches[i, n, k] · W[k, d] + b[d]
  over the extended reals.
-/
import proofs.«166114_j30305289240876_1_alg».proof.Proof.Gen.ReferenceIdeal.Read

noncomputable section

open scoped BigOperators
open Idealize.ShloMosaic Idealize.ShloMosaic.ValueIdx

namespace Cert.ReferenceIdeal.RefTokens

open Cert.ReferenceIdeal Cert.ReferenceIdeal.Gen Cert.ReferenceIdeal.Read

/-- The contraction's left index at (i, n, d) and k is patch n of image i at feature k. -/
theorem left_idx (i : Fin 64) (n : Fin 196) (d k : Fin 768) : lidx_main_v3 (ix3 i n d) k = ix3 i n k :=
  funext fun a => by match a with | ⟨0, _⟩ => rfl | ⟨1, _⟩ => rfl | ⟨2, _⟩ => rfl
/-- Its right index is row k, column d of the weights. -/
theorem right_idx (i : Fin 64) (n : Fin 196) (d k : Fin 768) : ridx_main_v3 (ix3 i n d) k = ix2 k d :=
  funext fun a => by match a with | ⟨0, _⟩ => rfl | ⟨1, _⟩ => rfl
/-- The twice-broadcast bias reads entry d. -/
theorem bias_idx (i : Fin 64) (n : Fin 196) (d : Fin 768) : idx_main_v4 (idx_main_v5 (ix3 i n d)) = ix1 d :=
  funext fun a => by match a with | ⟨0, _⟩ => rfl

/-- THE REFERENCE'S TOKENS at (i, n, d). -/
theorem tokens_apply (x0 : (⟨S64x3x224x224, .f32⟩ : BufTy).Contents (Elt Ideal)) (x1 : (⟨S768x768, .f32⟩ : BufTy).Contents (Elt Ideal))
    (x2 : (⟨S768, .f32⟩ : BufTy).Contents (Elt Ideal)) (i : Fin 64) (n : Fin 196) (d : Fin 768) :
    val_main_v6 (F := Ideal) x0 x1 x2 (ix3 i n d)
      = (∑ k : Fin 768, val_main_v2 (F := Ideal) x0 (ix3 i n k) * x1 (ix2 k d)) + x2 (ix1 d) := by
  rw [val_main_v6_apply, val_main_v3_apply, val_main_v5_apply, val_main_v4_apply, bias_idx]
  simp only [left_idx, right_idx]
  rfl

end Cert.ReferenceIdeal.RefTokens

end
-- ==== Proof.lean ====
/-
  Patch embedding: a kernel's projection of image patches against its plain reference.

  Both programs cut each of 64 images (3 x 224 x 224) into 196 patches of 768 features (a reshape, a transpose of the
  six axes, a reshape), project every patch by a 768 x 768 weight matrix and add a bias, put a class token in front of
  each image's 196 tokens, and add a table of 197 positions.  The kernel flattens (image, patch) into 12544 rows and
  projects them 896 rows at a grid point, the operands narrowed to a shorter float format before the product; the
  reference contracts the feature axis in one step.  Over the extended reals a change of float format is the identity
  and a product into a zero accumulator is the plain sum, so both hold at token (i, n), column d
      ∑ₖ patches[i, n, k] · W[k, d] + b[d],
  the same sum in the same order: no law of the extended reals beyond that is used, and the finiteness of the inputs
  is never opened.  The layout before the projection and the two host steps after it are the same operations in both
  programs and are never read at an index.

  The modules: Proof/TokenPayload.lean (one entry of what a grid point stores), Proof/TokenArray.lean (the row blocks
  tile the result), Proof/TokenRows.lean (flattening and un-flattening keep row-major positions), Proof/TokenRun.lean
  (the kernel program's run as one function of its arguments), Proof/RefTokens.lean (the reference's tokens at an entry).
-/
import proofs.«166114_j30305289240876_1_alg».proof.Defs
import proofs.«166114_j30305289240876_1_alg».proof.Proof.Gen.Kernel
import proofs.«166114_j30305289240876_1_alg».proof.Proof.Gen.Kernel.Skeleton
import proofs.«166114_j30305289240876_1_alg».proof.Proof.Gen.Kernel.Launch
import proofs.«166114_j30305289240876_1_alg».proof.Proof.Gen.Kernel.Points
import proofs.«166114_j30305289240876_1_alg».proof.Proof.Gen.Kernel.Frame
import proofs.«166114_j30305289240876_1_alg».proof.Proof.Gen.KernelIdeal
import proofs.«166114_j30305289240876_1_alg».proof.Proof.Gen.KernelIdeal.Skeleton
import proofs.«166114_j30305289240876_1_alg».proof.Proof.Gen.KernelIdeal.Launch
import proofs.«166114_j30305289240876_1_alg».proof.Proof.Gen.KernelIdeal.Points
import proofs.«166114_j30305289240876_1_alg».proof.Proof.Gen.KernelIdeal.Frame
import proofs.«166114_j30305289240876_1_alg».proof.Proof.Gen.ReferenceIdeal
import proofs.«166114_j30305289240876_1_alg».proof.Proof.Gen.Pre_finite_inputs
import proofs.«166114_j30305289240876_1_alg».proof.Proof.Gen.ReferenceIdeal.Run
import proofs.«166114_j30305289240876_1_alg».proof.Proof.Gen.ReferenceIdeal.Read
import proofs.«166114_j30305289240876_1_alg».proof.Proof.TokenRows
import proofs.«166114_j30305289240876_1_alg».proof.Proof.TokenRun
import proofs.«166114_j30305289240876_1_alg».proof.Proof.RefTokens
import Idealize.ShloMosaic.Adequacy
import Idealize.ShloMosaic.Init

noncomputable section

namespace Cert.Proof

open Idealize.ShloMosaic Idealize.ShloMosaic.ValueIdx Idealize.SL.Sem

/-- The two token arrays are one function of the arguments: entry by entry the same sum over the features plus the
    same bias, the patches the same layout of the image in both programs. -/
theorem same_tokens (x0 : (⟨Cert.ReferenceIdeal.S64x3x224x224, .f32⟩ : BufTy).Contents (Elt Ideal))
    (x1 : (⟨Cert.ReferenceIdeal.S768x768, .f32⟩ : BufTy).Contents (Elt Ideal))
    (x2 : (⟨Cert.ReferenceIdeal.S768, .f32⟩ : BufTy).Contents (Elt Ideal)) :
    Cert.ReferenceIdeal.Read.val_main_v6 (F := Ideal) x0 x1 x2
      = shapeCast Cert.KernelIdeal.S64x196x768
          (Cert.KernelIdeal.Tokens.proj
            (shapeCast Cert.KernelIdeal.S12544x768 (Cert.KernelIdeal.Tokens.patchify x0) Cert.KernelIdeal.Gen.shapeCasts_S64x196x768_S12544x768) x1 x2)
          Cert.KernelIdeal.Gen.shapeCasts_S12544x768_S64x196x768 := by
  funext j
  obtain ⟨i, n, d, rfl⟩ : ∃ (i : Fin 64) (n : Fin 196) (d : Fin 768), j = ix3 i n d := ⟨j 0, j 1, j 2, eq_ix3 j⟩
  refine (Cert.ReferenceIdeal.RefTokens.tokens_apply x0 x1 x2 i n d).trans ?_
  refine Eq.trans ?_ (Cert.KernelIdeal.Tokens.tokens_apply (Cert.KernelIdeal.Tokens.patchify x0) x1 x2 i n d).symm
  rfl

/-- So are the two results: the class token and the position table are added by the same host steps. -/
theorem same_result (x0 : (⟨Cert.ReferenceIdeal.S64x3x224x224, .f32⟩ : BufTy).Contents (Elt Ideal))
    (x1 : (⟨Cert.ReferenceIdeal.S768x768, .f32⟩ : BufTy).Contents (Elt Ideal))
    (x2 : (⟨Cert.ReferenceIdeal.S768, .f32⟩ : BufTy).Contents (Elt Ideal))
    (x3 : (⟨Cert.ReferenceIdeal.S197x768, .f32⟩ : BufTy).Contents (Elt Ideal))
    (x4 : (⟨Cert.ReferenceIdeal.S1x1x768, .f32⟩ : BufTy).Contents (Elt Ideal)) :
    Cert.ReferenceIdeal.Read.val_main_v11 (F := Ideal) x0 x1 x2 x3 x4 = Cert.KernelIdeal.Tokens.result x0 x1 x2 x3 x4 := by
  unfold Cert.KernelIdeal.Tokens.result
  rw [← same_tokens x0 x1 x2]
  rfl

theorem frame_kernel : Cert.frame_Kernel := fun m ρ _ => Cert.Kernel.Gen.frame m ρ
theorem frame_kernel_ideal : Cert.frame_KernelIdeal := fun m ρ _ => Cert.KernelIdeal.Gen.frame m ρ
/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories agreeing on the arguments both programs end at the one function of them. -/
theorem algebraic : Cert.algebraic_KernelIdeal_ReferenceIdeal := by
  intro m ρ m' ρ' _ hagree
  refine ⟨_, Cert.KernelIdeal.Tokens.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2.1, (hagree c).2.2.2.2]
  exact same_result _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
